-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x9000 : Shape := ⟨2, ![4096, 9000]⟩
abbrev S200000x2 : Shape := ⟨2, ![200000, 2]⟩
abbrev S200000 : Shape := ⟨1, ![200000]⟩
abbrev S2048 : Shape := ⟨1, ![2048]⟩
abbrev S_ : Shape := ⟨0, ![]⟩

class Facts : Prop where
  bcast_S_S4096x9000 : S_.BroadcastsInDim S4096x9000 (![] : Fin 0 → Fin S4096x9000.rank)
  reducesTo_S4096x9000_S_d0_1 : S4096x9000.ReducesTo [0, 1] S_
  h_S_ : 0 < S_.numel
  bcast_S_S200000 : S_.BroadcastsInDim S200000 (![] : Fin 0 → Fin S200000.rank)
  reducesTo_S200000_S_d0 : S200000.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x9000 .f32) (main_arg1 : IVec S200000x2 32) (main_arg2 : FVec F S200000 .f32) (main_arg3 : FVec F S2048 .f32) : IVec S_ 1 :=
  let main_v0 : FVec F S4096x9000 .f32 := Host.absf main_arg0
  let main_cst : FVec F S_ .f32 := constant S_ .f32 0x7F800000#32
  let main_v1 : FVec F S4096x9000 .f32 := broadcastInDim S4096x9000 ![] bcast_S_S4096x9000 main_cst
  let main_v2 : IVec S4096x9000 1 := cmpf .olt main_v0 main_v1
  let main_c : IVec S_ 1 := constantI S_ 1 1#1
  let main_v3 : IVec S_ 1 := (fun x v => Host.reduce IntOp.andi x v reducesTo_S4096x9000_S_d0_1 h_S_) main_v2 main_c
  let main_v4 : FVec F S200000 .f32 := Host.absf main_arg2
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x9000 : Shape := ⟨2, ![4096, 9000]⟩
abbrev S200000x2 : Shape := ⟨2, ![200000, 2]⟩
abbrev S200000 : Shape := ⟨1, ![200000]⟩
abbrev S2048 : Shape := ⟨1, ![2048]⟩
abbrev S200000x1 : Shape := ⟨2, ![200000, 1]⟩
abbrev S_ : Shape := ⟨0, ![]⟩
abbrev S9000x2048 : Shape := ⟨2, ![9000, 2048]⟩
abbrev S4096x9216 : Shape := ⟨2, ![4096, 9216]⟩
abbrev S9216x2048 : Shape := ⟨2, ![9216, 2048]⟩
abbrev S1x2048 : Shape := ⟨2, ![1, 2048]⟩
abbrev S4096x2048 : Shape := ⟨2, ![4096, 2048]⟩
abbrev S1024x1536 : Shape := ⟨2, ![1024, 1536]⟩
abbrev S1536x1024 : Shape := ⟨2, ![1536, 1024]⟩
abbrev S1x1024 : Shape := ⟨2, ![1, 1024]⟩
abbrev S1024x1024 : Shape := ⟨2, ![1024, 1024]⟩

abbrev nBuf : Space → Nat
  | .hbm => 38
  | .vmem => 9
  | .smem => 0
  | _ => 0

abbrev bufTy : (tb : Table) → Fin (tcTables nBuf tb) → BufTy
  | .hbm, ⟨0, _⟩ => ⟨S4096x9000, .f32⟩
  | .hbm, ⟨1, _⟩ => ⟨S200000x2, .i32⟩
  | .hbm, ⟨2, _⟩ => ⟨S200000, .f32⟩
  | .hbm, ⟨3, _⟩ => ⟨S2048, .f32⟩
  | .hbm, ⟨4, _⟩ => ⟨S200000x1, .i32⟩
  | .hbm, ⟨5, _⟩ => ⟨S200000, .i32⟩
  | .hbm, ⟨6, _⟩ => ⟨S200000x1, .i32⟩
  | .hbm, ⟨7, _⟩ => ⟨S200000, .i32⟩
  | .hbm, ⟨8, _⟩ => ⟨S_, .f32⟩
  | .hbm, ⟨9, _⟩ => ⟨S9000x2048, .f32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x1, .i32⟩
  | .hbm, ⟨26, _⟩ => ⟨S200000x2, .i32⟩
  | .hbm, ⟨27, _⟩ => ⟨S9000x2048, .f32⟩
  | .hbm, ⟨28, _⟩ => ⟨S_, .i32⟩
  | .hbm, ⟨29, _⟩ => ⟨S_, .f32⟩
  | .hbm, ⟨30, _⟩ => ⟨S4096x9216, .f32⟩
  | .hbm, ⟨31, _⟩ => ⟨S_, .i32⟩
  | .hbm, ⟨32, _⟩ => ⟨S_, .f32⟩
  | .hbm, ⟨33, _⟩ => ⟨S9216x2048, .f32⟩
  | .hbm, ⟨34, _⟩ => ⟨S4096x9216, .bf16⟩
  | .hbm, ⟨35, _⟩ => ⟨S9216x2048, .bf16⟩
  | .hbm, ⟨36, _⟩ => ⟨S1x2048, .f32⟩
  | .hbm, ⟨37, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x9000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call0_v0 : Ref sig .tc := ⟨.hbm, 29, rfl⟩
abbrev main_v19 : Ref sig .tc := ⟨.hbm, 30, rfl⟩
abbrev main_c_4 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S9000x2048 : S_.BroadcastsInDim S9000x2048 (![] : Fin 0 → Fin S9000x2048.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  pads_S4096x9000_S4096x9216_000_02160 : S4096x9000.Pads (![0, 0] : Fin 2 → Nat) ![0, 216] ![0, 0] S4096x9216
  h_S_ : 0 < S_.numel
  pads_S9000x2048_S9216x2048_02160_000 : S9000x2048.Pads (![0, 0] : Fin 2 → Nat) ![216, 0] ![0, 0] S9216x2048
  bitsLt_bf16_f32 : FTy.bits .bf16 < FTy.bits .f32
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S9000x2048_S200000x2_S200000_n_01_01_1_wf : ScatterDims.WF S9000x2048 S200000x2 S200000 [] [0, 1] [0, 1] 1
  dot_S1024x1536_S1536x1024_S1024x1024_1_0_0_1_n_n_wf : DotDims.WF S1024x1536 S1536x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1536.size a ≤ S4096x9216.size a
  hwx0_0 : ∀ i : grid0.Coords, EltTy.bits .bf16 = 32 ∨ (Rect.block (s := S4096x9216) S1024x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x1024.size a ≤ S9216x2048.size a
  hwx0_1 : ∀ i : grid0.Coords, EltTy.bits .bf16 = 32 ∨ (Rect.block (s := S9216x2048) S1536x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x2048.size a
  hwx0_3 : ∀ i : grid0.Coords, EltTy.bits .f32 = 32 ∨ (Rect.block (s := S4096x2048) S1024x1024.size (cc0_transform_3 i) (hinb0_3 i)).WholeWords (EltTy.packing .f32)

variable [Facts₀]

def scatter_S9000x2048_S200000x2_S200000_n_01_01_1 : ScatterDims S9000x2048 S200000x2 S200000 where
  updateWindowDims := []
  insertedWindowDims := [0, 1]
  scatterDimsToOperandDims := [0, 1]
  indexVectorDim := 1
  wf := scatter_S9000x2048_S200000x2_S200000_n_01_01_1_wf
def dot_S1024x1536_S1536x1024_S1024x1024_1_0_0_1_n_n : DotDims S1024x1536 S1536x1024 S1024x1024 where
  lhsContracting := [1]
  rhsContracting := [0]
  lhsNonContracting := [0]
  rhsNonContracting := [1]
  lhsBatch := []
  rhsBatch := []
  wf := dot_S1024x1536_S1536x1024_S1024x1024_1_0_0_1_n_n_wf

abbrev win0_0 : Pipeline.Window sig grid0 :=
  Pipeline.Window.ofSpec (Memref.whole main_v21) S1024x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1536x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x9000 : Shape := ⟨2, ![4096, 9000]⟩
abbrev S200000x2 : Shape := ⟨2, ![200000, 2]⟩
abbrev S200000 : Shape := ⟨1, ![200000]⟩
abbrev S2048 : Shape := ⟨1, ![2048]⟩
abbrev S_ : Shape := ⟨0, ![]⟩
abbrev S9000x2048 : Shape := ⟨2, ![9000, 2048]⟩
abbrev S200000x1 : Shape := ⟨2, ![200000, 1]⟩
abbrev S4096x2048 : Shape := ⟨2, ![4096, 2048]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x9000, .f32⟩
  | .hbm, ⟨1, _⟩ => ⟨S200000x2, .i32⟩
  | .hbm, ⟨2, _⟩ => ⟨S200000, .f32⟩
  | .hbm, ⟨3, _⟩ => ⟨S2048, .f32⟩
  | .hbm, ⟨4, _⟩ => ⟨S_, .f32⟩
  | .hbm, ⟨5, _⟩ => ⟨S9000x2048, .f32⟩
  | .hbm, ⟨6, _⟩ => ⟨S200000x1, .i32⟩
  | .hbm, ⟨7, _⟩ => ⟨S200000, .i32⟩
  | .hbm, ⟨8, _⟩ => ⟨S200000x1, .i32⟩
  | .hbm, ⟨9, _⟩ => ⟨S200000, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x1, .i32⟩
  | .hbm, ⟨26, _⟩ => ⟨S200000x2, .i32⟩
  | .hbm, ⟨27, _⟩ => ⟨S9000x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | _, _ => ⟨S4096x9000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S9000x2048 : S_.BroadcastsInDim S9000x2048 (![] : Fin 0 → Fin S9000x2048.rank)
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  scatter_S9000x2048_S200000x2_S200000_n_01_01_1_wf : ScatterDims.WF S9000x2048 S200000x2 S200000 [] [0, 1] [0, 1] 1
  dot_S4096x9000_S9000x2048_S4096x2048_1_0_0_1_n_n_wf : DotDims.WF S4096x9000 S9000x2048 S4096x2048 [1] [0] [0] [1] [] []

variable [Facts₀]

def scatter_S9000x2048_S200000x2_S200000_n_01_01_1 : ScatterDims S9000x2048 S200000x2 S200000 where
  updateWindowDims := []
  insertedWindowDims := [0, 1]
  scatterDimsToOperandDims := [0, 1]
  indexVectorDim := 1
  wf := scatter_S9000x2048_S200000x2_S200000_n_01_01_1_wf
def dot_S4096x9000_S9000x2048_S4096x2048_1_0_0_1_n_n : DotDims S4096x9000 S9000x2048 S4096x2048 where
  lhsContracting := [1]
  rhsContracting := [0]
  lhsNonContracting := [0]
  rhsNonContracting := [1]
  lhsBatch := []
  rhsBatch := []
  wf := dot_S4096x9000_S9000x2048_S4096x2048_1_0_0_1_n_n_wf

class Facts : Prop extends Facts₀ where

variable [Facts]
-- ==== Proof.Pieces.lean ====
/-
  What one grid point of the blocked product leaves behind, as values.

  The body keeps a running [1024, 1024] partial product in a scratch buffer.  At the first step of a reduction run
  (contraction block 0) it overwrites the scratch with zeros and then adds the step's block product; at every later step
  it adds the step's block product to what the step before left; at the last step it also stores the scratch plus the
  broadcast bias row into the output block.  Each lemma below reads the stores a case performed back as one term:

    first step  :  scratch = step zero x w
    later steps :  scratch = step prev x w
    last step   :  scratch = step prev x w   and   output = withBias (step prev x w) b

  where `step acc x w = acc + x · w` is the payload `k0_pay2`, `zero` the zero splat `k0_pay1` and
  `withBias a b = a + broadcast b` the payload `k0_pay3`.  All of it holds at every float instance: nothing here
  looks inside the payloads.
-/
import proofs.«132483_j3410204033732_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- The first step of a run: the zero splat is stored, read back, and the step's block product added to it. -/
theorem scratch_A (c : Dev nD) (i : grid0.Coords) (arg3 : Memref sig .tc .vmem S1024x1536 .bf16) (harg3 : arg3.IsWhole) (arg4 : Memref sig .tc .vmem S1536x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1536 .bf16) (x1 : Vec F S1536x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1536) hz,
    View.ld_unit_zero (S := S1536x1024) hz, View.readCov_unit_zero (S := S1024x1024) _ hz]

/-- A later step that is not the last: the scratch ends at what the step before left plus this step's block product. -/
theorem scratch_B (c : Dev nD) (i : grid0.Coords) (arg3 : Memref sig .tc .vmem S1024x1536 .bf16) (harg3 : arg3.IsWhole) (arg4 : Memref sig .tc .vmem S1536x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1536 .bf16) (x1 : Vec F S1536x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread, View.ld_unit_zero (S := S1024x1536) hz,
    View.ld_unit_zero (S := S1536x1024) hz, View.ld_unit_zero (S := S1024x1024) hz]

/-- The last step: the scratch as at any later step … -/
theorem scratch_C (c : Dev nD) (i : grid0.Coords) (arg3 : Memref sig .tc .vmem S1024x1536 .bf16) (harg3 : arg3.IsWhole) (arg4 : Memref sig .tc .vmem S1536x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1536 .bf16) (x1 : Vec F S1536x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1536) hz,
    View.ld_unit_zero (S := S1536x1024) hz, View.ld_unit_zero (S := S1024x1024) hz]

/-- … and the output block: the finished scratch, read back, plus the bias row broadcast over the rows. -/
theorem output_C (c : Dev nD) (i : grid0.Coords) (arg3 : Memref sig .tc .vmem S1024x1536 .bf16) (harg3 : arg3.IsWhole) (arg4 : Memref sig .tc .vmem S1536x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1536 .bf16) (x1 : Vec F S1536x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x1536) hz,
    View.ld_unit_zero (S := S1536x1024) hz, View.ld_unit_zero (S := S1024x1024) hz, View.ld_unit_zero (S := S1x1024) hz,
    View.readCov_unit_zero (S := S1024x1024) _ hz]

end Cert.KernelIdeal.Steps

end
-- ==== Proof.Payload.lean ====
/-
  The three payloads of the blocked product, read at one entry, over the extended reals.

    zero entry      :  0
    step entry      :  (acc + x · w)(p, q)   = acc(p, q) + Σ_{k < 1536} x(p, k) · w(k, q)
    withBias entry  :  (a + broadcast b)(p, q) = a(p, q) + b(0, q)

  The matrix unit's product into a zero accumulator is the plain sum of products over the contracted axis; the operand
  indices of the dimension numbers (contract axis 1 of the left operand with axis 0 of the right) are (p, k) and (k, q).
-/
import proofs.«132483_j3410204033732_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.StepValue

open Cert.KernelIdeal Cert.KernelIdeal.Gen

/-- Left operand, axis 0: the output's row. -/
theorem lhs_step_0 (i : S1024x1024.Idx) (q : dot_S1024x1536_S1536x1024_S1024x1024_1_0_0_1_n_n.contr.Idx) :
    (dot_S1024x1536_S1536x1024_S1024x1024_1_0_0_1_n_n.lhsIdx i q 0).val = (i 0).val := by
  unfold DotDims.lhsIdx
  rw [dif_neg (show ¬(0 : Fin S1024x1536.rank) ∈ dot_S1024x1536_S1536x1024_S1024x1024_1_0_0_1_n_n.lhsBatch by decide), dif_pos (show (0 : Fin S1024x1536.rank) ∈ dot_S1024x1536_S1536x1024_S1024x1024_1_0_0_1_n_n.lhsNonContracting by decide)]
  rfl
/-- Left operand, axis 1: the contraction index. -/
theorem lhs_step_1 (i : S1024x1024.Idx) (q : dot_S1024x1536_S1536x1024_S1024x1024_1_0_0_1_n_n.contr.Idx) :
    (dot_S1024x1536_S1536x1024_S1024x1024_1_0_0_1_n_n.lhsIdx i q 1).val = (q ⟨0, by decide⟩).val :=
  dot_S1024x1536_S1536x1024_S1024x1024_1_0_0_1_n_n.lhsIdx_val_of_single rfl i q
/-- Right operand, axis 0: the contraction index. -/
theorem rhs_step_0 (i : S1024x1024.Idx) (q : dot_S1024x1536_S1536x1024_S1024x1024_1_0_0_1_n_n.contr.Idx) :
    (dot_S1024x1536_S1536x1024_S1024x1024_1_0_0_1_n_n.rhsIdx i q 0).val = (q ⟨0, by decide⟩).val :=
  dot_S1024x1536_S1536x1024_S1024x1024_1_0_0_1_n_n.rhsIdx_val_of_single rfl i q
/-- Right operand, axis 1: the output's column. -/
theorem rhs_step_1 (i : S1024x1024.Idx) (q : dot_S1024x1536_S1536x1024_S1024x1024_1_0_0_1_n_n.contr.Idx) :
    (dot_S1024x1536_S1536x1024_S1024x1024_1_0_0_1_n_n.rhsIdx i q 1).val = (i 1).val := by
  unfold DotDims.rhsIdx
  rw [dif_neg (show ¬(1 : Fin S1536x1024.rank) ∈ dot_S1024x1536_S1536x1024_S1024x1024_1_0_0_1_n_n.rhsBatch by decide), dif_pos (show (1 : Fin S1536x1024.rank) ∈ dot_S1024x1536_S1536x1024_S1024x1024_1_0_0_1_n_n.rhsNonContracting by decide)]
  rfl

/-- The reset value is zero everywhere. -/
theorem zero_apply (j : S1024x1024.Idx) : k0_pay1 (F := Ideal) j = 0 := by
  unfold k0_pay1
  simp only [shapeCast_self]
  exact Ideal.ofBits_zero_f32

/-- One accumulation step at entry (p, q): the accumulator there plus the block product's entry. -/
theorem step_apply (acc : FVec Ideal S1024x1024 .f32) (x : FVec Ideal S1024x1536 .bf16) (w : FVec Ideal S1536x1024 .bf16)
    (p q : Fin 1024) :
    k0_pay2 (F := Ideal) acc x w (ix2 p q) = acc (ix2 p q) + ∑ k : Fin 1536, x (ix2 p k) * w (ix2 k q) := by
  unfold k0_pay2
  simp only [shapeCast_self]
  rw [addf_apply]
  refine congrArg (acc (ix2 p q) + ·) ?_
  simp only [matmul]
  rw [Ideal.matmul_constant_zero_apply, ← Equiv.sum_comp (contrEquiv1 dot_S1024x1536_S1536x1024_S1024x1024_1_0_0_1_n_n 1536 rfl rfl).symm]
  refine Finset.sum_congr rfl fun k _ => ?_
  have hk := contrEquiv1_symm_val dot_S1024x1536_S1536x1024_S1024x1024_1_0_0_1_n_n 1536 rfl rfl k
  have el : dot_S1024x1536_S1536x1024_S1024x1024_1_0_0_1_n_n.lhsIdx (ix2 p q) ((contrEquiv1 dot_S1024x1536_S1536x1024_S1024x1024_1_0_0_1_n_n 1536 rfl rfl).symm k) = ix2 p k := funext fun a => Fin.ext (by
    match a with
    | ⟨0, _⟩ => exact lhs_step_0 _ _
    | ⟨1, _⟩ => exact (lhs_step_1 _ _).trans hk)
  have er : dot_S1024x1536_S1536x1024_S1024x1024_1_0_0_1_n_n.rhsIdx (ix2 p q) ((contrEquiv1 dot_S1024x1536_S1536x1024_S1024x1024_1_0_0_1_n_n 1536 rfl rfl).symm k) = ix2 k q := funext fun a => Fin.ext (by
    match a with
    | ⟨0, _⟩ => exact (rhs_step_0 _ _).trans hk
    | ⟨1, _⟩ => exact rhs_step_1 _ _)
  rw [el, er]

/-- The epilogue at entry (p, q): the accumulator there plus the bias row's entry q. -/
theorem withBias_apply (a : FVec Ideal S1024x1024 .f32) (b : FVec Ideal S1x1024 .f32) (p q : Fin 1024) :
    k0_pay3 (F := Ideal) a b (ix2 p q) = a (ix2 p q) + b (ix2 (0 : Fin 1) q) := by
  unfold k0_pay3
  simp only [shapeCast_self]
  rw [addf_apply]
  refine congrArg (a (ix2 p q) + ·) ?_
  exact broadcastTo_apply b broadcasts_S1x1024_S1024x1024 (ix2 p q) (ix2 (0 : Fin 1) q) (fun d => by
    match d with
    | ⟨0, _⟩ => show 0 = if (1 : Nat) = 1 then 0 else _; rw [if_pos rfl]
    | ⟨1, _⟩ => show q.val = if (1024 : Nat) = 1 then 0 else q.val; rw [if_neg (by decide)])

end Cert.KernelIdeal.StepValue

end
-- ==== Proof.Blocks.lean ====
/-
  Where each window's block sits in its array.

  The grid has 4 × 2 × 6 points; point `t` is (row block, column block, contraction block) =
  (t / 12, t / 6 % 2, t % 6).  At point `t`
    the left operand's block   is rows 1024·(t/12) …, columns 1536·(t%6) …  of the padded left operand  [4096, 9216],
    the right operand's block  is rows 1536·(t%6) …,  columns 1024·(t/6%2) … of the padded right operand [9216, 2048],
    the bias block             is columns 1024·(t/6%2) … of the bias row [1, 2048],
    the output block           is rows 1024·(t/12) …, columns 1024·(t/6%2) … of the result [4096, 2048].
  The index maps are decided once over the 48 points; an entry of a block is then the array's entry at the block's
  offset plus the entry's coordinates.
-/
import proofs.«132483_j3410204033732_1_alg».proof.Proof.Gen.KernelIdeal.Frame.Runs
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of the four windows at point `t`, in closed form. -/
theorem index_facts : ∀ t : Fin cfg0.N,
    win0_0.index t (0 : Fin 2) = t.val / 12 ∧ win0_0.index t (1 : Fin 2) = t.val % 6
    ∧ win0_1.index t (0 : Fin 2) = t.val % 6 ∧ win0_1.index t (1 : Fin 2) = t.val / 6 % 2
    ∧ win0_2.index t (0 : Fin 2) = 0 ∧ win0_2.index t (1 : Fin 2) = t.val / 6 % 2
    ∧ win0_3.index t (0 : Fin 2) = t.val / 12 ∧ win0_3.index t (1 : Fin 2) = t.val / 6 % 2 :=
  (by decide +kernel : ∀ t : Fin grid0.N, _)

/-- The padded left operand, the padded right operand and the bias row as the region finds them, and the blocks of
    them the body is handed at point `t`, under their literal types. -/
abbrev leftArr (c : Dev nD) : Vec F S4096x9216 .bf16 := V m c main_v21
abbrev rightArr (c : Dev nD) : Vec F S9216x2048 .bf16 := V m c main_v22
abbrev biasArr (c : Dev nD) : Vec F S1x2048 .f32 := V m c main_v23
abbrev leftBlk (c : Dev nD) (t : Fin cfg0.N) : Vec F S1024x1536 .bf16 := iblk m c 0 t
abbrev rightBlk (c : Dev nD) (t : Fin cfg0.N) : Vec F S1536x1024 .bf16 := iblk m c 1 t
abbrev biasBlk (c : Dev nD) (t : Fin cfg0.N) : Vec F S1x1024 .f32 := iblk m c 2 t

/-- Entry (p, k) of the left block at `t` is entry (1024·(t/12) + p, 1536·(t%6) + k) of the padded left operand. -/
theorem leftBlk_apply (c : Dev nD) (t : Fin cfg0.N) (p : Fin 1024) (k : Fin 1536) (r : Fin 4096) (kk : Fin 9216)
    (hr : r.val = 1024 * (t.val / 12) + p.val) (hk : kk.val = 1536 * (t.val % 6) + k.val) :
    leftBlk m c t (ix2 p k) = leftArr m c (ix2 r kk) := by
  obtain ⟨e0, e1, -⟩ := index_facts t
  unfold leftBlk leftArr iblk
  rw [View.read_apply]
  show V m c main_v21 _ = V m c main_v21 _
  refine congrArg (V m c main_v21) (funext fun a => Fin.ext ?_)
  match a with
  | ⟨0, _⟩ => show win0_0.index t (0 : Fin 2) * 1024 + 1 * p.val = r.val; omega
  | ⟨1, _⟩ => show win0_0.index t (1 : Fin 2) * 1536 + 1 * k.val = kk.val; omega

/-- Entry (k, q) of the right block at `t` is entry (1536·(t%6) + k, 1024·(t/6%2) + q) of the padded right operand. -/
theorem rightBlk_apply (c : Dev nD) (t : Fin cfg0.N) (k : Fin 1536) (q : Fin 1024) (kk : Fin 9216) (s : Fin 2048)
    (hk : kk.val = 1536 * (t.val % 6) + k.val) (hs : s.val = 1024 * (t.val / 6 % 2) + q.val) :
    rightBlk m c t (ix2 k q) = rightArr m c (ix2 kk s) := by
  obtain ⟨-, -, e2, e3, -⟩ := index_facts t
  unfold rightBlk rightArr iblk
  rw [View.read_apply]
  show V m c main_v22 _ = V m c main_v22 _
  refine congrArg (V m c main_v22) (funext fun a => Fin.ext ?_)
  match a with
  | ⟨0, _⟩ => show win0_1.index t (0 : Fin 2) * 1536 + 1 * k.val = kk.val; omega
  | ⟨1, _⟩ => show win0_1.index t (1 : Fin 2) * 1024 + 1 * q.val = s.val; omega

/-- Entry (0, q) of the bias block at `t` is entry (0, 1024·(t/6%2) + q) of the bias row. -/
theorem biasBlk_apply (c : Dev nD) (t : Fin cfg0.N) (q : Fin 1024) (s : Fin 2048)
    (hs : s.val = 1024 * (t.val / 6 % 2) + q.val) :
    biasBlk m c t (ix2 (0 : Fin 1) q) = biasArr m c (ix2 (0 : Fin 1) s) := by
  obtain ⟨-, -, -, -, e4, e5, -⟩ := index_facts t
  unfold biasBlk biasArr iblk
  rw [View.read_apply]
  show V m c main_v23 _ = V m c main_v23 _
  refine congrArg (V m c main_v23) (funext fun a => Fin.ext ?_)
  match a with
  | ⟨0, _⟩ => show win0_2.index t (0 : Fin 2) * 1 + 1 * 0 = 0; omega
  | ⟨1, _⟩ => show win0_2.index t (1 : Fin 2) * 1024 + 1 * q.val = s.val; omega

end Cert.KernelIdeal.Blocks

end
-- ==== Proof.Fold.lean ====
/-
  The running partial product, and what the last step of a run writes out.

  Point `n` contributes `addend n`: entry (p, q) of its block product, Σ_{k < 1536} left_n(p, k) · right_n(k, q).
  A run of six points 6·u … 6·u + 5 shares one output block; the scratch holds, after the point at offset j of its run,
  0 plus the addends of the run's points up to it (the first point stores 0 + its addend, every later point adds its
  own).  The last point of a run stores the scratch plus the bias row into the output block.
-/
import proofs.«132483_j3410204033732_1_alg».proof.Proof.Gen.KernelIdeal.Value
import proofs.«132483_j3410204033732_1_alg».proof.Proof.Pieces
import proofs.«132483_j3410204033732_1_alg».proof.Proof.Payload
import proofs.«132483_j3410204033732_1_alg».proof.Proof.Blocks

noncomputable section

open Idealize.ShloMosaic Idealize.ShloMosaic.TcCoe Idealize.SL.Sem Idealize.ShloMosaic.ValueIdx
open scoped BigOperators

namespace Cert.KernelIdeal.Fold

open Cert.KernelIdeal Cert.KernelIdeal.Gen Cert.KernelIdeal.Blocks

variable (m : (ℓ : Loc nD τ sig) → Buf (Elt Ideal) ℓ)

/-- Entry `i` of point `n`'s block product (zero for `n` past the grid, so that it is a function of every natural). -/
def addend (c : Dev nD) (n : ℕ) (i : S1024x1024.Idx) : EReal :=
  if h : n < cfg0.N then ∑ k : Fin 1536, leftBlk m c ⟨n, h⟩ (ix2 (i 0) k) * rightBlk m c ⟨n, h⟩ (ix2 k (i 1)) else 0

/-- The first point of a run leaves 0 + its addend in the scratch, whatever was there. -/
theorem first_step (c : Dev nD) (n : ℕ) (h : n < cfg0.N) (h0 : n % 6 = 0) (acc : Vec Ideal S1024x1024 .f32) (i : S1024x1024.Idx) :
    Value.scAt0_0 m c n h acc i = 0 + addend m c n i := by
  have hN := lt_of_lt_of_eq h (show cfg0.N = 48 from N_0)
  have h1 : ¬n % 6 = 5 := by omega
  obtain ⟨p, q, rfl⟩ : ∃ (p q : Fin 1024), i = ix2 p q := ⟨i 0, i 1, eq_ix2 i⟩
  unfold Value.scAt0_0
  rw [dif_pos h0, dif_neg h1]
  refine (congrFun (Steps.scratch_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N))) (ix2 p q)).trans ?_
  refine (StepValue.step_apply (k0_pay1 (F := Ideal)) (leftBlk m c ⟨n, h⟩) (rightBlk m c ⟨n, h⟩) p q).trans ?_
  rw [StepValue.zero_apply]
  unfold addend
  rw [dif_pos h]

/-- Every other point of a run adds its addend to what the point before left. -/
theorem later_step (c : Dev nD) (n : ℕ) (h : n < cfg0.N) (h0 : ¬n % 6 = 0) (acc : Vec Ideal S1024x1024 .f32) (i : S1024x1024.Idx) :
    Value.scAt0_0 m c n h acc i = acc i + addend m c n i := by
  obtain ⟨p, q, rfl⟩ : ∃ (p q : Fin 1024), i = ix2 p q := ⟨i 0, i 1, eq_ix2 i⟩
  have hadd : acc (ix2 p q) + ∑ k : Fin 1536, leftBlk m c ⟨n, h⟩ (ix2 p k) * rightBlk m c ⟨n, h⟩ (ix2 k q) = acc (ix2 p q) + addend m c n (ix2 p q) := by
    unfold addend
    rw [dif_pos h]
  unfold Value.scAt0_0
  rw [dif_neg h0]
  by_cases h1 : n % 6 = 5
  · rw [dif_pos h1]
    refine (congrFun (Steps.scratch_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) acc) (ix2 p q)).trans ?_
    exact (StepValue.step_apply acc (leftBlk m c ⟨n, h⟩) (rightBlk m c ⟨n, h⟩) p q).trans hadd
  · rw [dif_neg h1]
    refine (congrFun (Steps.scratch_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) acc) (ix2 p q)).trans ?_
    exact (StepValue.step_apply acc (leftBlk m c ⟨n, h⟩) (rightBlk m c ⟨n, h⟩) p q).trans hadd

/-- After point `t` the scratch holds 0 plus the addends of the points of `t`'s run up to `t`. -/
theorem scratch_after (c : Dev nD) (t : Fin cfg0.N) (i : S1024x1024.Idx) :
    (outsAt0 m c t.val t.isLt).2 i = 0 + ∑ s ∈ Finset.range (t.val % 6 + 1), addend m c (6 * (t.val / 6) + s) i := by
  have hlt : t.val % 6 < 6 := Nat.mod_lt _ (by decide)
  rw [Value.soutsAt0_0_eq m c t]
  exact Pipeline.accAt_add_apply (ι := S1024x1024.Idx) (β := EReal) (fun n h => Value.scAt0_0 m c n h (VS0_0.read (Elt Ideal) VS0_0.junk)) (Value.scAt0_0 m c)
    (fun _ => 0) (addend m c) (6 * (t.val / 6)) 5
    (fun h i => first_step m c _ h (Nat.mul_mod_right 6 _) _ i)
    (fun n h acc i hb he => later_step m c n h (by omega) acc i)
    (t.val % 6) (by omega) _ i

/-- The last point of a run writes the finished scratch plus the bias row. -/
theorem output_last (c : Dev nD) (t : Fin cfg0.N) (h5 : t.val % 6 = 5) (p q : Fin 1024) :
    (outsAt0 m c t.val t.isLt).1 (ix2 p q) = (outsAt0 m c t.val t.isLt).2 (ix2 p q) + biasBlk m c t (ix2 (0 : Fin 1) q) := by
  have h0 : ¬t.val % 6 = 0 := by omega
  rw [outsAt0_C m c t h0 h5]
  dsimp only
  refine (congrFun (Steps.output_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h5) (iblk m c 0 t) (iblk m c 1 t) (iblk m c 2 t) (outsAt0 m c (t.val - 1) (Nat.lt_of_le_of_lt (Nat.sub_le _ _) t.isLt)).2) (ix2 p q)).trans ?_
  refine (StepValue.withBias_apply _ (biasBlk m c t) p q).trans ?_
  refine congrArg (· + biasBlk m c t (ix2 (0 : Fin 1) q)) ?_
  exact (congrFun (Steps.scratch_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h5) (iblk m c 0 t) (iblk m c 1 t) (iblk m c 2 t) (outsAt0 m c (t.val - 1) (Nat.lt_of_le_of_lt (Nat.sub_le _ _) t.isLt)).2) (ix2 p q)).symm

end Cert.KernelIdeal.Fold

end
-- ==== Proof.Host.lean ====
/-
  The three arrays the kernel region reads, as the host operations before it leave them.

  Before the region, the program builds the dense [9000, 2048] matrix from the sparse entries (indices normalised,
  weights scatter-added into a zero matrix: `dense`), pads the contraction axis of both operands from 9000 to 9216
  with the value `float(0)`, narrows both to the 16-bit format, and reshapes the bias to one row:

    left  operand = narrow (pad x            along axis 1)        [4096, 9216]
    right operand = narrow (pad (dense i w)  along axis 0)        [9216, 2048]
    bias row      = reshape bias                                  [1, 2048]

  Over the extended reals the narrowing is the identity and `float(0)` is 0, so entry (r, k) of the left operand is
  x(r, k) for k < 9000 and 0 from 9000 on, likewise the right operand along its rows, and the bias row's entry (0, s)
  is bias(s).
-/
import proofs.«132483_j3410204033732_1_alg».proof.Proof.Gen.KernelIdeal.Frame.Runs
import Idealize.ShloMosaic.Lib.ValueIdx
import Idealize.ShloMosaic.Lib.Pipeline.Value
import Idealize.ShloMosaic.Lib.StableHlo.Run
import Idealize.ShloMosaic.Lib.KernelVsHost

noncomputable section

open Idealize.ShloMosaic Idealize.ShloMosaic.TcCoe Idealize.SL.Sem Idealize.ShloMosaic.ValueIdx

namespace Cert.KernelIdeal.Entry

open Cert.KernelIdeal Cert.KernelIdeal.Gen

section AnyInstance

variable {F : FTy → Type} [FloatOps F]
variable (m : (ℓ : Loc nD τ sig) → Buf (Elt F) ℓ)

/-- The dense matrix: the weights scatter-added into zeros at the (sign-normalised) index pairs. -/
def dense (x1 : (⟨S200000x2, .i32⟩ : BufTy).Contents (Elt F)) (x2 : (⟨S200000, .f32⟩ : BufTy).Contents (Elt F)) :
    (⟨S9000x2048, .f32⟩ : BufTy).Contents (Elt F) :=
  Host.scatterAdd scatter_S9000x2048_S200000x2_S200000_n_01_01_1 (broadcastInDim S9000x2048 ![] bcast_S_S9000x2048 (constant S_ .f32 0x00000000#32)) (concatenate S200000x2 1 [⟨S200000x1, (broadcastInDim S200000x1 ![0] bcast_S200000_S200000x1_0 (select (cmpi .slt (shapeCast _ (extractStridedSlice S200000x1 ![0, 0] (x1) slices_S200000x2_S200000x1_0_0) shapeCasts_S200000x1_S200000) (broadcastInDim S200000 ![] bcast_S_S200000 (constantI S_ 32 0#32))) (addi (shapeCast _ (extractStridedSlice S200000x1 ![0, 0] (x1) slices_S200000x2_S200000x1_0_0) shapeCasts_S200000x1_S200000) (broadcastInDim S200000 ![] bcast_S_S200000 (constantI S_ 32 9000#32))) (shapeCast _ (extractStridedSlice S200000x1 ![0, 0] (x1) slices_S200000x2_S200000x1_0_0) shapeCasts_S200000x1_S200000)))⟩, ⟨S200000x1, (broadcastInDim S200000x1 ![0] bcast_S200000_S200000x1_0 (select (cmpi .slt (shapeCast _ (extractStridedSlice S200000x1 ![0, 1] (x1) slices_S200000x2_S200000x1_0_1) shapeCasts_S200000x1_S200000) (broadcastInDim S200000 ![] bcast_S_S200000 (constantI S_ 32 0#32))) (addi (shapeCast _ (extractStridedSlice S200000x1 ![0, 1] (x1) slices_S200000x2_S200000x1_0_1) shapeCasts_S200000x1_S200000) (broadcastInDim S200000 ![] bcast_S_S200000 (constantI S_ 32 2048#32))) (shapeCast _ (extractStridedSlice S200000x1 ![0, 1] (x1) slices_S200000x2_S200000x1_0_1) shapeCasts_S200000x1_S200000)))⟩] concatenates_S200000x1_S200000x1_S200000x2_d1) (x2)

/-- The padding value: the integer 0 converted to a float. -/
abbrev padValue : (⟨S_, .f32⟩ : BufTy).Contents (Elt F) := sitofp (F := F) .f32 (constantI S_ 32 0#32)

theorem left_entry (c : Dev nD) : (V m c main_v21 : (⟨S4096x9216, .bf16⟩ : BufTy).Contents (Elt F)) =
    truncf .bf16 (pad S4096x9216 ![0, 0] ![0, 216] ![0, 0] (m ((c : Thread nD τ).loc main_arg0)) (padValue (F := F)) pads_S4096x9000_S4096x9216_000_02160 h_S_) bitsLt_bf16_f32 := by
  dsimp only [V]
  simp only [hostOps0, hostOps0_1, hostOps0_2, hostOps0_3, hostOps0_4, List.flatten_cons, List.flatten_nil, List.append_nil, List.cons_append, List.nil_append]
  after_results
  rfl

set_option maxHeartbeats 3200000 in
theorem right_entry (c : Dev nD) : (V m c main_v22 : (⟨S9216x2048, .bf16⟩ : BufTy).Contents (Elt F)) =
    truncf .bf16 (pad S9216x2048 ![0, 0] ![216, 0] ![0, 0] (dense (m ((c : Thread nD τ).loc main_arg1)) (m ((c : Thread nD τ).loc main_arg2))) (padValue (F := F)) pads_S9000x2048_S9216x2048_02160_000 h_S_) bitsLt_bf16_f32 := by
  have h : ∃ y, (V m c main_v22 : (⟨S9216x2048, .bf16⟩ : BufTy).Contents (Elt F)) = y ∧ y =
      truncf .bf16 (pad S9216x2048 ![0, 0] ![216, 0] ![0, 0] (dense (m ((c : Thread nD τ).loc main_arg1)) (m ((c : Thread nD τ).loc main_arg2))) (padValue (F := F)) pads_S9000x2048_S9216x2048_02160_000 h_S_) bitsLt_bf16_f32 := by
    refine ⟨?_, ?_, ?_⟩
    rotate_left
    · dsimp only [V]
      simp only [hostOps0, hostOps0_1, hostOps0_2, hostOps0_3, hostOps0_4, List.flatten_cons, List.flatten_nil, List.append_nil, List.cons_append, List.nil_append]
      after_results
    · rfl
  obtain ⟨y, h1, h2⟩ := h
  exact h1.trans h2

theorem bias_entry (c : Dev nD) : (V m c main_v23 : (⟨S1x2048, .f32⟩ : BufTy).Contents (Elt F)) =
    shapeCast S1x2048 (m ((c : Thread nD τ).loc main_arg3)) shapeCasts_S2048_S1x2048 := by
  dsimp only [V]
  simp only [hostOps0, hostOps0_1, hostOps0_2, hostOps0_3, hostOps0_4, List.flatten_cons, List.flatten_nil, List.append_nil, List.cons_append, List.nil_append]
  after_results
  rfl

end AnyInstance

/-! ## Read at an entry, over the extended reals -/

/-- `float(0)` is 0. -/
theorem padValue_apply (i : S_.Idx) : padValue (F := Ideal) i = 0 := by
  show (((0#32 : BitVec 32).toInt : ℝ) : EReal) = 0
  simp

/-- The left operand padded along its columns. -/
theorem padLeft_apply (x : FVec Ideal S4096x9000 .f32) (r : Fin 4096) (k : Fin 9216) :
    (truncf .bf16 (pad S4096x9216 ![0, 0] ![0, 216] ![0, 0] x (padValue (F := Ideal)) pads_S4096x9000_S4096x9216_000_02160 h_S_) bitsLt_bf16_f32 : FVec Ideal S4096x9216 .bf16) (ix2 r k)
      = if h : k.val < 9000 then x (ix2 r ⟨k.val, h⟩) else 0 := by
  rw [truncf_apply]
  by_cases h : k.val < 9000
  · rw [dif_pos h]
    exact pad_apply_of_inside _ _ _ x _ pads_S4096x9000_S4096x9216_000_02160 h_S_ (ix2 r k) (ix2 r ⟨k.val, h⟩) (fun a => by
      match a with
      | ⟨0, _⟩ => show r.val = 0 + r.val * (0 + 1); omega
      | ⟨1, _⟩ => show k.val = 0 + k.val * (0 + 1); omega)
  · rw [dif_neg h]
    refine (pad_apply_of_not_inside _ _ _ x _ pads_S4096x9000_S4096x9216_000_02160 h_S_ (ix2 r k) (1 : Fin 2) ?_).trans (padValue_apply _)
    show ¬(0 ≤ k.val ∧ (k.val - 0) % (0 + 1) = 0 ∧ (k.val - 0) / (0 + 1) < 9000)
    omega

/-- The right operand padded along its rows. -/
theorem padRight_apply (W : FVec Ideal S9000x2048 .f32) (k : Fin 9216) (s : Fin 2048) :
    (truncf .bf16 (pad S9216x2048 ![0, 0] ![216, 0] ![0, 0] W (padValue (F := Ideal)) pads_S9000x2048_S9216x2048_02160_000 h_S_) bitsLt_bf16_f32 : FVec Ideal S9216x2048 .bf16) (ix2 k s)
      = if h : k.val < 9000 then W (ix2 ⟨k.val, h⟩ s) else 0 := by
  rw [truncf_apply]
  by_cases h : k.val < 9000
  · rw [dif_pos h]
    exact pad_apply_of_inside _ _ _ W _ pads_S9000x2048_S9216x2048_02160_000 h_S_ (ix2 k s) (ix2 ⟨k.val, h⟩ s) (fun a => by
      match a with
      | ⟨0, _⟩ => show k.val = 0 + k.val * (0 + 1); omega
      | ⟨1, _⟩ => show s.val = 0 + s.val * (0 + 1); omega)
  · rw [dif_neg h]
    refine (pad_apply_of_not_inside _ _ _ W _ pads_S9000x2048_S9216x2048_02160_000 h_S_ (ix2 k s) (0 : Fin 2) ?_).trans (padValue_apply _)
    show ¬(0 ≤ k.val ∧ (k.val - 0) % (0 + 1) = 0 ∧ (k.val - 0) / (0 + 1) < 9000)
    omega

/-- The bias as one row. -/
theorem biasRow_apply (b : FVec Ideal S2048 .f32) (s : Fin 2048) :
    (shapeCast S1x2048 b shapeCasts_S2048_S1x2048 : FVec Ideal S1x2048 .f32) (ix2 (0 : Fin 1) s) = b (ix1 s) :=
  shapeCast_apply b shapeCasts_S2048_S1x2048 (ix2 (0 : Fin 1) s) (ix1 s)
    (by rewrite [Shape.rowMajor_val_two, Shape.rowMajor_val_one]; show s.val = 0 * 2048 + s.val; omega)

end Cert.KernelIdeal.Entry

end
-- ==== Proof.Sums.lean ====
/-
  Two facts about finite sums in a commutative additive monoid, used to compare a contraction carried out
  block by block over a zero-padded axis with the same contraction over the unpadded axis.

  * `sum_blocks`: a sum over `B` consecutive blocks of `K` terms each is the sum over the first `B * K` naturals.
  * `sum_range_pad`: terms that vanish from `n` on contribute nothing, so the sum over `n + p` naturals is the sum
    over the first `n`.
-/
import Mathlib.Algebra.BigOperators.Fin
import Mathlib.Algebra.BigOperators.Intervals

open scoped BigOperators

namespace Cert.BlockSum

variable {β : Type*} [AddCommMonoid β]

/-- Summing block `s` (the terms `K * s + 0 … K * s + (K - 1)`) for `s = 0 … B - 1` enumerates `0 … B * K - 1` once. -/
theorem sum_blocks (f : ℕ → β) (K : ℕ) :
    ∀ B : ℕ, ∑ s ∈ Finset.range B, ∑ kk : Fin K, f (K * s + kk.val) = ∑ k ∈ Finset.range (B * K), f k
  | 0 => by simp
  | B + 1 => by
    rw [Finset.sum_range_succ, sum_blocks f K B, Nat.succ_mul, Finset.sum_range_add,
      Fin.sum_univ_eq_sum_range (fun x => f (K * B + x)) K, Nat.mul_comm K B]

/-- Terms that are zero from `n` on do not contribute. -/
theorem sum_range_pad (f : ℕ → β) (n p : ℕ) (h : ∀ k, n ≤ k → f k = 0) :
    ∑ k ∈ Finset.range (n + p), f k = ∑ k ∈ Finset.range n, f k := by
  rw [Finset.sum_range_add, Finset.sum_eq_zero (fun x _ => h (n + x) (Nat.le_add_right n x)), add_zero]

end Cert.BlockSum
-- ==== Proof.Spec.lean ====
/-
  The specification, and the one law that joins the two programs.

  `result x W b` is the function both programs compute: entry (r, s) of `x · W + b`, the contraction running over the
  9000 columns of `x` (rows of `W`), the bias added once per column.

  The kernel contracts instead over 9216 = 6 · 1536 indices, six blocks of 1536, of operands padded with zeros from
  index 9000 on.  `term X Wp r s k` is the k-th product of that padded contraction (made total in `k` by reading zero
  past 9216), and `blocked_contraction` says that summing it block by block gives the unpadded contraction: the six
  blocks enumerate 0 … 9215 once, and every product from index 9000 on is 0 · 0 = 0.  Only commutativity and
  associativity of addition on the extended reals are used, so no finiteness of the inputs is needed.
-/
import Idealize.ShloMosaic.Lib.ValueIdx
import proofs.«132483_j3410204033732_1_alg».proof.Proof.Sums

noncomputable section

open Idealize.ShloMosaic Idealize.ShloMosaic.ValueIdx
open scoped BigOperators

namespace Cert.DenseSpec

/-- Entry (r, s) of `x · W + b`. -/
def result (x : (⟨2, ![4096, 9000]⟩ : Shape).Idx → EReal) (W : (⟨2, ![9000, 2048]⟩ : Shape).Idx → EReal)
    (b : (⟨1, ![2048]⟩ : Shape).Idx → EReal) : (⟨2, ![4096, 2048]⟩ : Shape).Idx → EReal :=
  fun i => (∑ k : Fin 9000, x (ix2 (i 0) k) * W (ix2 k (i 1))) + b (ix1 (i 1))

/-- The k-th product of the padded contraction at output entry (r, s); zero for `k` past the padded extent. -/
def term (X : (⟨2, ![4096, 9216]⟩ : Shape).Idx → EReal) (Wp : (⟨2, ![9216, 2048]⟩ : Shape).Idx → EReal)
    (r : Fin 4096) (s : Fin 2048) (k : ℕ) : EReal :=
  if h : k < 9216 then X (ix2 r ⟨k, h⟩) * Wp (ix2 ⟨k, h⟩ s) else 0

theorem term_of_lt (X : (⟨2, ![4096, 9216]⟩ : Shape).Idx → EReal) (Wp : (⟨2, ![9216, 2048]⟩ : Shape).Idx → EReal)
    (r : Fin 4096) (s : Fin 2048) (k : ℕ) (h : k < 9216) : term X Wp r s k = X (ix2 r ⟨k, h⟩) * Wp (ix2 ⟨k, h⟩ s) :=
  dif_pos h

/-- Six blocks of 1536 products of the zero-padded operands sum to the contraction over the 9000 real indices. -/
theorem blocked_contraction (x : (⟨2, ![4096, 9000]⟩ : Shape).Idx → EReal) (W : (⟨2, ![9000, 2048]⟩ : Shape).Idx → EReal)
    (X : (⟨2, ![4096, 9216]⟩ : Shape).Idx → EReal) (Wp : (⟨2, ![9216, 2048]⟩ : Shape).Idx → EReal)
    (hX : ∀ (r : Fin 4096) (k : Fin 9216), X (ix2 r k) = if h : k.val < 9000 then x (ix2 r ⟨k.val, h⟩) else 0)
    (hW : ∀ (k : Fin 9216) (s : Fin 2048), Wp (ix2 k s) = if h : k.val < 9000 then W (ix2 ⟨k.val, h⟩ s) else 0)
    (r : Fin 4096) (s : Fin 2048) :
    ∑ b ∈ Finset.range 6, ∑ kk : Fin 1536, term X Wp r s (1536 * b + kk.val) = ∑ k : Fin 9000, x (ix2 r k) * W (ix2 k s) := by
  have hpad : ∀ k, 9000 ≤ k → term X Wp r s k = 0 := fun k hk => by
    by_cases h : k < 9216
    · have hx : X (ix2 r ⟨k, h⟩) = 0 := (hX r ⟨k, h⟩).trans (dif_neg (by show ¬k < 9000; omega))
      rw [term_of_lt X Wp r s k h, hx, zero_mul]
    · exact dif_neg h
  rw [Cert.BlockSum.sum_blocks (term X Wp r s) 1536 6, show 6 * 1536 = 9000 + 216 from rfl,
    Cert.BlockSum.sum_range_pad (term X Wp r s) 9000 216 hpad, ← Fin.sum_univ_eq_sum_range (term X Wp r s) 9000]
  refine Finset.sum_congr rfl fun k _ => ?_
  have hk : k.val < 9216 := by have := k.isLt; omega
  rw [term_of_lt X Wp r s k.val hk, (hX r ⟨k.val, hk⟩).trans (dif_pos k.isLt), (hW ⟨k.val, hk⟩ s).trans (dif_pos k.isLt)]

end Cert.DenseSpec

end
-- ==== Proof.Whole.lean ====
/-
  The kernel's result array, as one function of the program's arguments.

  The last point of each run of six writes its output block back: block (t/12, t/6 % 2) of the [4096, 2048] result.
  Entry (p, q) of that block is the sum of the run's six block products plus the bias entry, i.e. with r = 1024·(t/12) + p
  and s = 1024·(t/6 % 2) + q,

      Σ_{b < 6} Σ_{k < 1536} left(r, 1536·b + k) · right(1536·b + k, s)  +  biasRow(0, s),

  which is the specification's entry (r, s) of `x · dense + bias`: the padded operands are zero from index 9000 on, so
  the six blocks add up to the contraction over the 9000 real indices (`DenseSpec.blocked_contraction`).  The eight
  written blocks tile the result, so the result array is the specification everywhere.
-/
import proofs.«132483_j3410204033732_1_alg».proof.Proof.Fold
import proofs.«132483_j3410204033732_1_alg».proof.Proof.Host
import proofs.«132483_j3410204033732_1_alg».proof.Proof.Spec

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Cert.KernelIdeal.Blocks

variable (m : (ℓ : Loc nD τ sig) → Buf (Elt Ideal) ℓ) (ρ : Dev nD → PrngReg)

/-- The program's arguments under their literal types: x, the dense matrix built from the sparse entries, the bias. -/
abbrev argX (c : Dev nD) : FVec Ideal S4096x9000 .f32 := m ((c : Thread nD τ).loc main_arg0)
abbrev argW (c : Dev nD) : FVec Ideal S9000x2048 .f32 :=
  Entry.dense (m ((c : Thread nD τ).loc main_arg1)) (m ((c : Thread nD τ).loc main_arg2))
abbrev argB (c : Dev nD) : FVec Ideal S2048 .f32 := m ((c : Thread nD τ).loc main_arg3)

/-- What the result array ends holding: the specification at the program's arguments. -/
abbrev target (c : Dev nD) : Buf (Elt Ideal) ((c : Thread nD τ).loc main_v24) :=
  Cert.DenseSpec.result (argX m c) (argW m c) (argB m c)

/-- The padded left operand the region finds: x, then zeros. -/
theorem left_apply (c : Dev nD) (r : Fin 4096) (k : Fin 9216) :
    leftArr m c (ix2 r k) = if h : k.val < 9000 then argX m c (ix2 r ⟨k.val, h⟩) else 0 := by
  rw [show leftArr m c = _ from Entry.left_entry m c]
  exact Entry.padLeft_apply _ r k

/-- The padded right operand the region finds: the dense matrix, then zeros. -/
theorem right_apply (c : Dev nD) (k : Fin 9216) (s : Fin 2048) :
    rightArr m c (ix2 k s) = if h : k.val < 9000 then argW m c (ix2 ⟨k.val, h⟩ s) else 0 := by
  rw [show rightArr m c = _ from Entry.right_entry m c]
  exact Entry.padRight_apply _ k s

/-- The bias row the region finds. -/
theorem bias_apply (c : Dev nD) (s : Fin 2048) :
    biasArr m c (ix2 (0 : Fin 1) s) = argB m c (ix1 s) := by
  rw [show biasArr m c = _ from Entry.bias_entry m c]
  exact Entry.biasRow_apply _ s

/-- The addend of the point at offset `b` of `t`'s run, at entry (p, q), is contraction block `b` of the padded
    contraction at the array entry (r, s) the block entry lands on. -/
theorem addend_eq (c : Dev nD) (t : Fin cfg0.N) (b : ℕ) (hb : b < 6) (p q : Fin 1024) (r : Fin 4096) (s : Fin 2048)
    (hr : r.val = 1024 * (t.val / 12) + p.val) (hs : s.val = 1024 * (t.val / 6 % 2) + q.val) :
    Fold.addend m c (6 * (t.val / 6) + b) (ix2 p q)
      = ∑ k : Fin 1536, Cert.DenseSpec.term (leftArr m c) (rightArr m c) r s (1536 * b + k.val) := by
  have hN : t.val < 48 := lt_of_lt_of_eq t.isLt (show cfg0.N = 48 from N_0)
  have hn : 6 * (t.val / 6) + b < cfg0.N := lt_of_lt_of_eq (show 6 * (t.val / 6) + b < 48 by omega) (show (48 : ℕ) = cfg0.N from N_0.symm)
  unfold Fold.addend
  rw [dif_pos hn]
  refine Finset.sum_congr rfl fun k _ => ?_
  have hk : 1536 * b + k.val < 9216 := by have := k.isLt; omega
  rw [Cert.DenseSpec.term_of_lt _ _ r s _ hk]
  have el := leftBlk_apply m c ⟨6 * (t.val / 6) + b, hn⟩ p k r ⟨1536 * b + k.val, hk⟩
    (by show r.val = 1024 * ((6 * (t.val / 6) + b) / 12) + p.val; omega)
    (by show 1536 * b + k.val = 1536 * ((6 * (t.val / 6) + b) % 6) + k.val; omega)
  have er := rightBlk_apply m c ⟨6 * (t.val / 6) + b, hn⟩ k q ⟨1536 * b + k.val, hk⟩ s
    (by show 1536 * b + k.val = 1536 * ((6 * (t.val / 6) + b) % 6) + k.val; omega)
    (by show s.val = 1024 * ((6 * (t.val / 6) + b) / 6 % 2) + q.val; omega)
  exact congrArg₂ (· * ·) el er

/-- Entry (p, q) of the block a last point writes is the specification at the array entry it lands on. -/
theorem entry_last (c : Dev nD) (t : Fin cfg0.N) (h5 : t.val % 6 = 5) (p q : Fin 1024) (r : Fin 4096) (s : Fin 2048)
    (hr : r.val = 1024 * (t.val / 12) + p.val) (hs : s.val = 1024 * (t.val / 6 % 2) + q.val) :
    (outsAt0 m c t.val t.isLt).1 (ix2 p q) = target m c (ix2 r s) := by
  rw [Fold.output_last m c t h5 p q, Fold.scratch_after m c t (ix2 p q), h5, zero_add]
  show _ = (∑ k : Fin 9000, argX m c (ix2 r k) * argW m c (ix2 k s)) + argB m c (ix1 s)
  refine congrArg₂ (· + ·) ?_ ?_
  · rw [Finset.sum_congr rfl (fun b hb => addend_eq m c t b (Finset.mem_range.mp hb) p q r s hr hs)]
    exact Cert.DenseSpec.blocked_contraction _ _ (leftArr m c) (rightArr m c) (left_apply m c) (right_apply m c) r s
  · exact (biasBlk_apply m c t q s hs).trans (bias_apply m c s)

/-- WHAT A LAST POINT WRITES BACK is its block of the specification. -/
theorem flushed_eq (c : Dev nD) (t : Fin cfg0.N) (hf : (cfg0.win 3).flush t = true) :
    (dats m 0 c).flushed 3 t = ((cfg0.win 3).blk t).view.read (Elt Ideal) (target m c) := by
  have h5 : t.val % 6 = 5 := (flush0_3 t).mp hf
  have hN : t.val < 48 := lt_of_lt_of_eq t.isLt (show cfg0.N = 48 from N_0)
  obtain ⟨-, -, -, -, -, -, e6, e7⟩ := index_facts t
  rw [Value.flushed3]
  funext j
  have hj0 : (j 0).val < 1024 := (j 0).isLt
  have hj1 : (j 1).val < 1024 := (j 1).isLt
  show (outsAt0 m c t.val t.isLt).1 j = target m c (((cfg0.win 3).blk t).view.emb j)
  have e1 : (outsAt0 m c t.val t.isLt).1 j = (outsAt0 m c t.val t.isLt).1 (ix2 (j 0) (j 1)) :=
    congrArg (outsAt0 m c t.val t.isLt).1 (eq_ix2 j)
  have e2 : ((cfg0.win 3).blk t).view.emb j
      = ix2 (⟨1024 * (t.val / 12) + (j 0).val, by omega⟩ : Fin 4096) (⟨1024 * (t.val / 6 % 2) + (j 1).val, by omega⟩ : Fin 2048) := by
    funext a; apply Fin.ext
    match a with
    | ⟨0, _⟩ => show win0_3.index t (0 : Fin 2) * 1024 + 1 * (j 0).val = 1024 * (t.val / 12) + (j 0).val; omega
    | ⟨1, _⟩ => show win0_3.index t (1 : Fin 2) * 1024 + 1 * (j 1).val = 1024 * (t.val / 6 % 2) + (j 1).val; omega
  rw [e1, e2]
  exact entry_last m c t h5 (j 0) (j 1) _ _ rfl rfl

/-- An index of the result is in point `t`'s block iff each coordinate is in the block's range on its axis. -/
theorem mem_block (t : Fin cfg0.N) (i : S4096x2048.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v24).slice (win0_3.rect t)).set ↔ _
  rw [View.set_slice_whole, Rect.mem_set_unit]
  exact Iff.rfl

/-- Every entry (r, s) of the result lies in the block written by the last point of the run of row block r / 1024 and
    column block s / 1024. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 48 := N_0
  have ht : 12 * ((i 0).val / 1024) + 6 * ((i 1).val / 1024) + 5 < cfg0.N :=
    lt_of_lt_of_eq (show 12 * ((i 0).val / 1024) + 6 * ((i 1).val / 1024) + 5 < 48 by omega) hN.symm
  refine ⟨⟨12 * ((i 0).val / 1024) + 6 * ((i 1).val / 1024) + 5, ht⟩, (flush0_3 _).mpr (by show (12 * ((i 0).val / 1024) + 6 * ((i 1).val / 1024) + 5) % 6 = 5; omega), ?_⟩
  obtain ⟨-, -, -, -, -, -, e6, e7⟩ := index_facts ⟨12 * ((i 0).val / 1024) + 6 * ((i 1).val / 1024) + 5, ht⟩
  rw [mem_block]
  intro a
  match a with
  | ⟨0, _⟩ =>
    show win0_3.index _ (0 : Fin 2) * 1024 ≤ (i 0).val ∧ (i 0).val < win0_3.index _ (0 : Fin 2) * 1024 + 1024
    rw [e6]
    show (12 * ((i 0).val / 1024) + 6 * ((i 1).val / 1024) + 5) / 12 * 1024 ≤ (i 0).val ∧ (i 0).val < (12 * ((i 0).val / 1024) + 6 * ((i 1).val / 1024) + 5) / 12 * 1024 + 1024
    omega
  | ⟨1, _⟩ =>
    show win0_3.index _ (1 : Fin 2) * 1024 ≤ (i 1).val ∧ (i 1).val < win0_3.index _ (1 : Fin 2) * 1024 + 1024
    rw [e7]
    show (12 * ((i 0).val / 1024) + 6 * ((i 1).val / 1024) + 5) / 6 % 2 * 1024 ≤ (i 1).val ∧ (i 1).val < (12 * ((i 0).val / 1024) + 6 * ((i 1).val / 1024) + 5) / 6 % 2 * 1024 + 1024
    omega

/-- So the result array ends at the specification. -/
theorem final (c : Dev nD) : (dats m 0 c).arrAt 3 cfg0.N = target m c :=
  (dats m 0 c).arrAt_eq_of_cover 3 (target m c) (flushed_eq m c) cover

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v24) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference, read at an entry: it is the specification.

  The reference builds the same dense matrix `W` from the sparse entries, takes the plain product `x · W` (entry (r, s)
  is Σ_{k < 9000} x(r, k) · W(k, s) over the extended reals) and adds the bias broadcast over the rows.
-/
import proofs.«132483_j3410204033732_1_alg».proof.Proof.Gen.ReferenceIdeal.Read
import proofs.«132483_j3410204033732_1_alg».proof.Proof.Spec

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read

/-- The reference's result, as a function of its four arguments, is `x · W + bias` with `W` its scatter-built matrix. -/
theorem reference_eq (x0 : (⟨S4096x9000, .f32⟩ : BufTy).Contents (Elt Ideal)) (x1 : (⟨S200000x2, .i32⟩ : BufTy).Contents (Elt Ideal))
    (x2 : (⟨S200000, .f32⟩ : BufTy).Contents (Elt Ideal)) (x3 : (⟨S2048, .f32⟩ : BufTy).Contents (Elt Ideal)) :
    val_main_v22 (F := Ideal) x0 x1 x2 x3 = Cert.DenseSpec.result x0 (val_main_v18 (F := Ideal) x1 x2) x3 := by
  funext i
  obtain ⟨r, s, rfl⟩ : ∃ (r : Fin 4096) (s : Fin 2048), i = ix2 r s := ⟨i 0, i 1, eq_ix2 i⟩
  have el : ∀ k : Fin 9000, lidx_main_v19 (ix2 r s) k = ix2 r k := fun k => funext fun a => Fin.ext (by
    match a with
    | ⟨0, _⟩ => rfl
    | ⟨1, _⟩ => rfl)
  have er : ∀ k : Fin 9000, ridx_main_v19 (ix2 r s) k = ix2 k s := fun k => funext fun a => Fin.ext (by
    match a with
    | ⟨0, _⟩ => rfl
    | ⟨1, _⟩ => rfl)
  have eb : idx_main_v20 (idx_main_v21 (ix2 r s)) = ix1 s := funext fun a => Fin.ext (by
    match a with
    | ⟨0, _⟩ => rfl)
  rw [val_main_v22_apply, val_main_v19_apply, val_main_v21_apply, val_main_v20_apply]
  simp only [el, er, eb]
  rfl

end Cert.ReferenceIdeal.RefValue

end
-- ==== Proof.lean ====
/-
  A sparse-to-dense linear layer: the dense [9000, 2048] weight matrix is scatter-built from 200000 (row, column, weight)
  entries, and the result is `x · W + bias` for x of shape [4096, 9000].

  The kernel pads the contraction axis with zeros from 9000 to 9216 = 6 · 1536, narrows both operands (the identity over
  the extended reals), and accumulates the product block by block: for each of the 4 × 2 output blocks of 1024 × 1024,
  six contraction blocks of 1536 are added into a scratch accumulator that is zeroed at the first one; after the sixth,
  the accumulator plus the bias row is written out.  The reference takes the one product over the 9000 indices and adds
  the bias.

  Over the extended reals the two agree entry by entry: the six block sums enumerate the padded contraction's 9216 products
  once, and the last 216 of them are 0 · 0 = 0 (`DenseSpec.blocked_contraction`: associativity and commutativity of
  addition only, so the inputs' finiteness is not used).  The dense matrix is the same term of the index and weight
  arrays in both programs (`dense_eq`) and is never opened.

  The kernel's run and frame are the generated ones; its result array is read block by block (`Whole.run`).  The
  reference's run is the generated one, read at an entry (`RefValue.reference_eq`).  The idealization rewrote nothing.
-/
import proofs.«132483_j3410204033732_1_alg».proof.Defs
import proofs.«132483_j3410204033732_1_alg».proof.Proof.Gen.Kernel
import proofs.«132483_j3410204033732_1_alg».proof.Proof.Gen.Kernel.Skeleton
import proofs.«132483_j3410204033732_1_alg».proof.Proof.Gen.Kernel.Launch
import proofs.«132483_j3410204033732_1_alg».proof.Proof.Gen.Kernel.Points
import proofs.«132483_j3410204033732_1_alg».proof.Proof.Gen.Kernel.Frame
import proofs.«132483_j3410204033732_1_alg».proof.Proof.Gen.KernelIdeal
import proofs.«132483_j3410204033732_1_alg».proof.Proof.Gen.KernelIdeal.Skeleton
import proofs.«132483_j3410204033732_1_alg».proof.Proof.Gen.KernelIdeal.Launch
import proofs.«132483_j3410204033732_1_alg».proof.Proof.Gen.KernelIdeal.Points
import proofs.«132483_j3410204033732_1_alg».proof.Proof.Gen.KernelIdeal.Frame
import proofs.«132483_j3410204033732_1_alg».proof.Proof.Gen.ReferenceIdeal
import proofs.«132483_j3410204033732_1_alg».proof.Proof.Gen.Pre_finite_inputs
import proofs.«132483_j3410204033732_1_alg».proof.Proof.Gen.KernelIdeal.Value
import proofs.«132483_j3410204033732_1_alg».proof.Proof.Gen.ReferenceIdeal.Run
import proofs.«132483_j3410204033732_1_alg».proof.Proof.Gen.ReferenceIdeal.Read
import proofs.«132483_j3410204033732_1_alg».proof.Proof.Whole
import proofs.«132483_j3410204033732_1_alg».proof.Proof.RefValue
import Idealize.ShloMosaic.Adequacy
import Idealize.ShloMosaic.Init

noncomputable section

namespace Cert.Proof

open Idealize.ShloMosaic Idealize.ShloMosaic.TcCoe Idealize.SL.Sem

/-- Both programs build the dense matrix by the same operations on the index and weight arrays. -/
theorem dense_eq (x1 : (⟨Cert.KernelIdeal.S200000x2, .i32⟩ : BufTy).Contents (Elt Ideal))
    (x2 : (⟨Cert.KernelIdeal.S200000, .f32⟩ : BufTy).Contents (Elt Ideal)) :
    Cert.KernelIdeal.Entry.dense (F := Ideal) x1 x2 = Cert.ReferenceIdeal.Read.val_main_v18 (F := Ideal) x1 x2 := by
  unfold Cert.KernelIdeal.Entry.dense Cert.ReferenceIdeal.Read.val_main_v18 Cert.ReferenceIdeal.Read.val_main_v17
    Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0 Cert.ReferenceIdeal.Read.val_main_c_1
    Cert.ReferenceIdeal.Read.val_main_c_2
  rfl

/-- The kernel runs and leaves its arguments as they were (the generated frame, at the word level). -/
theorem frame_kernel : Cert.frame_Kernel (hKernel := Cert.Kernel.Gen.facts) (hPre_finite_inputs := Cert.Pre_finite_inputs.Gen.facts) :=
  fun m ρ _ => Cert.Kernel.Gen.frame m ρ

/-- The same for its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, both idealized programs end with `x · W + bias` of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.reference_eq,
    (hagree c).1, (hagree c).2.1, (hagree c).2.2.1, (hagree c).2.2.2]
  rw [← dense_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
